-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256 .f32) (main_arg8 : FVec F S256x256 .f32) (main_arg9 : FVec F S256x256 .f32) (main_arg10 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256x256 .f32) (main_arg7 : FVec F S256 .f32) (main_arg8 : FVec F S256x256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S256x256 .f32) (main_arg3 : FVec F S256x256 .f32) (main_arg4 : FVec F S256 .f32) (main_arg5 : FVec F S256x256 .f32) (main_arg6 : FVec F S256x256 .f32) (main_arg7 : FVec F S256 .f32) (main_arg8 : FVec F S256x256 .f32) (main_arg9 : FVec F S256x256 .f32) (main_arg10 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S256x256 : Shape := ⟨2, ![256, 256]⟩
abbrev S256 : Shape := ⟨1, ![256]⟩
abbrev S256x768 : Shape := ⟨2, ![256, 768]⟩
abbrev S256x512 : Shape := ⟨2, ![256, 512]⟩
abbrev S512 : Shape := ⟨1, ![512]⟩
abbrev S1024x256 : Shape := ⟨2, ![1024, 256]⟩
abbrev S1024x768 : Shape := ⟨2, ![1024, 768]⟩
abbrev S1024x512 : Shape := ⟨2, ![1024, 512]⟩
abbrev S1x256 : Shape := ⟨2, ![1, 256]⟩

abbrev nBuf : Space → Nat
  | .hbm => 18
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x768, .f32⟩
  | .hbm, ⟨12, _⟩ => ⟨S256x768, .bf16⟩
  | .hbm, ⟨13, _⟩ => ⟨S256x512, .f32⟩
  | .hbm, ⟨14, _⟩ => ⟨S256x512, .bf16⟩
  | .hbm, ⟨15, _⟩ => ⟨S256x256, .bf16⟩
  | .hbm, ⟨16, _⟩ => ⟨S512, .f32⟩
  | .hbm, ⟨17, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x768, .bf16⟩
  | .local _ .vmem, ⟨5, _⟩ => ⟨S256x512, .bf16⟩
  | .local _ .vmem, ⟨6, _⟩ => ⟨S256x256, .bf16⟩
  | .local _ .vmem, ⟨7, _⟩ => ⟨S512, .f32⟩
  | .local _ .vmem, ⟨8, _⟩ => ⟨S256, .f32⟩
  | .local _ .vmem, ⟨9, _⟩ => ⟨S1024x256, .f32⟩
  | .local _ .vmem, ⟨10, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x256_S256x256_S256x256_S256x768_d1 : Shape.Concatenates [S256x256, S256x256, S256x256] S256x768 1
  bitsLt_bf16_f32 : FTy.bits .bf16 < FTy.bits .f32
  concatenates_S256x256_S256x256_S256x512_d1 : Shape.Concatenates [S256x256, S256x256] S256x512 1
  concatenates_S256_S256_S512_d0 : Shape.Concatenates [S256, S256] S512 0
  inb_S1024x256_S1024x256_0_0 : ∀ a, (![0, 0] : Fin 2 → Nat) a + S1024x256.size a ≤ S1024x256.size a
  h_S1024x256 : 0 < S1024x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  slices_S1024x512_o0_0_S1024x256 : S1024x512.Slices ![0, 0] S1024x256
  slices_S1024x512_o0_256_S1024x256 : S1024x512.Slices ![0, 256] S1024x256
  inb_S512_S512_0 : ∀ a, (![0] : Fin 1 → Nat) a + S512.size a ≤ S512.size a
  h_S512 : 0 < S512.numel
  shapeCasts_S512_S512 : S512.ShapeCasts S512
  slices_S512_o0_S256 : S512.Slices ![0] S256
  slices_S512_o256_S256 : S512.Slices ![256] S256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  dot_S1024x256_S256x768_S1024x768_1_0_0_1_n_n_wf : DotDims.WF S1024x256 S256x768 S1024x768 [1] [0] [0] [1] [] []
  dot_S1024x256_S256x512_S1024x512_1_0_0_1_n_n_wf : DotDims.WF S1024x256 S256x512 S1024x512 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S256x768 : Shape := ⟨2, ![256, 768]⟩
abbrev S65536x768 : Shape := ⟨2, ![65536, 768]⟩
abbrev S256x512 : Shape := ⟨2, ![256, 512]⟩
abbrev S65536x512 : Shape := ⟨2, ![65536, 512]⟩
abbrev S1x256 : Shape := ⟨2, ![1, 256]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x768, .f32⟩
  | .hbm, ⟨12, _⟩ => ⟨S65536x768, .f32⟩
  | .hbm, ⟨13, _⟩ => ⟨S65536x256, .f32⟩
  | .hbm, ⟨14, _⟩ => ⟨S65536x256, .f32⟩
  | .hbm, ⟨15, _⟩ => ⟨S65536x256, .f32⟩
  | .hbm, ⟨16, _⟩ => ⟨S256x512, .f32⟩
  | .hbm, ⟨17, _⟩ => ⟨S65536x512, .f32⟩
  | .hbm, ⟨18, _⟩ => ⟨S65536x256, .f32⟩
  | .hbm, ⟨19, _⟩ => ⟨S65536x256, .f32⟩
  | .hbm, ⟨20, _⟩ => ⟨S65536x256, .f32⟩
  | .hbm, ⟨21, _⟩ => ⟨S1x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S_, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S1x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S1x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S_, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  concatenates_S256x256_S256x256_S256x256_S256x768_d1 : Shape.Concatenates [S256x256, S256x256, S256x256] S256x768 1
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  concatenates_S256x256_S256x256_S256x512_d1 : Shape.Concatenates [S256x256, S256x256] S256x512 1
  slices_S65536x512_S65536x256_0_0 : S65536x512.Slices ![0, 0] S65536x256
  slices_S65536x512_S65536x256_0_256 : S65536x512.Slices ![0, 256] S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  dot_S65536x256_S256x768_S65536x768_1_0_0_1_n_n_wf : DotDims.WF S65536x256 S256x768 S65536x768 [1] [0] [0] [1] [] []
  dot_S65536x256_S256x512_S65536x512_1_0_0_1_n_n_wf : DotDims.WF S65536x256 S256x512 S65536x512 [1] [0] [0] [1] [] []
  dot_S65536x256_S256x256_S65536x256_1_0_0_1_n_n_wf : DotDims.WF S65536x256 S256x256 S65536x256 [1] [0] [0] [1] [] []

variable [Facts₀]

def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.KernelFrame.lean ====
/-
  The frame of the GRU-cell program, at any float instance: every weakly fair execution of @main terminates
  without a fault and leaves the eleven argument arrays as they were.

  @main is six host operations — the three input-side weight matrices laid side by side along the columns and
  narrowed to bf16, the two hidden-side matrices likewise, the third hidden matrix narrowed, the two gate
  biases laid end to end — followed by one region over a grid of 64 points. None of the six writes an argument
  array, so the region finds every argument as launched. Point t of the grid reads rows 1024·t … 1024·t + 1023
  of x and of h_prev, and the whole of the five small operands (which are fetched once, at the first point,
  and stay in place), and writes rows 1024·t … 1024·t + 1023 of the result: one store that covers the output
  block whole. The body keeps nothing between points. So the output block after a point is one function
  (out_blk) of the seven input blocks at that point, every input block is found in place whether or not it
  was fetched at that point, and the run of the whole grid follows from the body's triple at a generic point.
-/
import proofs.«168312_j28389733827226_1_alg».proof.Proof.Gen.Kernel.Launch
import proofs.«168312_j28389733827226_1_alg».proof.Proof.Gen.Kernel.Skeleton
import proofs.«168312_j28389733827226_1_alg».proof.Proof.Gen.Kernel.Points
import Idealize.ShloMosaic.Lib.Pipeline.FrameBody
import Idealize.ShloMosaic.Lib.Ring
import Idealize.ShloMosaic.Lib.Tactic

-- membership in a rectangle of 1024 × 256 entries is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch memory after the six host operations. -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is the six host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is
    not fetched its block index has not moved since the last fetch), for any proof data whose array is the
    region-entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments x, h_prev and bh are arrays of input windows (0, 1 and 6), which no point writes back; the
    other eight arguments are staged by no window and are as the region found them; and the region found all
    eleven as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans (((dats 0 c).arrAt_in 6 rfl _).trans ((hA c 6).trans (V_main_arg10 m c)))⟩) h

/-! ## The body's accesses: every load and the one store take their buffer whole -/

abbrev rA : Rect S1024x256 := Rect.unit (s := S1024x256) ![0, 0] S1024x256.size inb_S1024x256_S1024x256_0_0
abbrev rWx : Rect S256x768 := Rect.unit (s := S256x768) ![0, 0] S256x768.size inb_S256x768_S256x768_0_0
abbrev rUzr : Rect S256x512 := Rect.unit (s := S256x512) ![0, 0] S256x512.size inb_S256x512_S256x512_0_0
abbrev rUh : Rect S256x256 := Rect.unit (s := S256x256) ![0, 0] S256x256.size inb_S256x256_S256x256_0_0
abbrev rBzr : Rect S512 := Rect.unit (s := S512) ![0] S512.size inb_S512_S512_0
abbrev rBh : Rect S256 := Rect.unit (s := S256) ![0] S256.size inb_S256_S256_0

/-! ## What the body leaves in the output window's buffer -/

/-- The output block after the body, from the seven input blocks: its one store, the new hidden state
    z · h_prev + (1 − z) · tanh(…) of the blocks' rows. -/
def out_blk (x0 : Vec F S1024x256 .f32) (x1 : Vec F S1024x256 .f32) (x2 : Vec F S256x768 .bf16) (x3 : Vec F S256x512 .bf16) (x4 : Vec F S256x256 .bf16) (x5 : Vec F S512 .f32) (x6 : Vec F S256 .f32) : Vec F S1024x256 .f32 :=
  View.canon [⟨rA, k0_pay1 (k0_pay6 (View.ld x0 rA) (View.ld x1 rA) (View.ld x2 rWx) (View.ld x3 rUzr) (View.ld x4 rUh) (View.ld x5 rBzr) (View.ld x6 rBh)) (k0_pay7 (View.ld x0 rA) (View.ld x1 rA) (View.ld x2 rWx) (View.ld x3 rUzr) (View.ld x5 rBzr)) (k0_pay8 (View.ld x0 rA) (View.ld x1 rA) (View.ld x2 rWx) (View.ld x3 rUzr) (View.ld x5 rBzr))⟩]

/-- The one store covers the buffer. -/
theorem cover_out (p0 : Vec F S1024x256 .f32) (y : S1024x256.Idx) :
    ∃ pc ∈ ([⟨rA, p0⟩] : List (View.Piece (Elt F) S1024x256 .f32)), y ∈ pc.1.set :=
  View.cover_of_tiled [⟨rA, p0⟩] S1024x256.size (by rfl) y

/-! ## The body's triple -/

set_option maxHeartbeats 1000000 in
/-- The body on whole staging buffers, the inputs' at contents x0 … x6 and the output's at anything, runs to a state
    holding the inputs' as they were and the output's at out_blk of them. -/
theorem sound_kernel (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S256x768 .bf16) (harg3 : arg3.IsWhole) (arg4 : Memref sig .tc .vmem S256x512 .bf16) (harg4 : arg4.IsWhole) (arg5 : Memref sig .tc .vmem S256x256 .bf16) (harg5 : arg5.IsWhole) (arg6 : Memref sig .tc .vmem S512 .f32) (harg6 : arg6.IsWhole) (arg7 : Memref sig .tc .vmem S256 .f32) (harg7 : arg7.IsWhole) (arg8 : Memref sig .tc .vmem S1024x256 .f32) (harg8 : arg8.IsWhole)
    (x0 : Vec F S1024x256 .f32) (x1 : Vec F S1024x256 .f32) (x2 : Vec F S256x768 .bf16) (x3 : Vec F S256x512 .bf16) (x4 : Vec F S256x256 .bf16) (x5 : Vec F S512 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out_blk x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The pipeline's proof data -/

/-- On core c: the arrays as the region finds them; after the body at point t each input's buffer at its block and
    the output's at out_blk of the input blocks; nothing of the kernel's own to keep; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out_blk (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = out_blk (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its eleven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KernelIdealFrame.lean ====
/-
  The frame of the GRU-cell program, at any float instance: every weakly fair execution of @main terminates
  without a fault and leaves the eleven argument arrays as they were.

  @main is six host operations — the three input-side weight matrices laid side by side along the columns and
  narrowed to bf16, the two hidden-side matrices likewise, the third hidden matrix narrowed, the two gate
  biases laid end to end — followed by one region over a grid of 64 points. None of the six writes an argument
  array, so the region finds every argument as launched. Point t of the grid reads rows 1024·t … 1024·t + 1023
  of x and of h_prev, and the whole of the five small operands (which are fetched once, at the first point,
  and stay in place), and writes rows 1024·t … 1024·t + 1023 of the result: one store that covers the output
  block whole. The body keeps nothing between points. So the output block after a point is one function
  (out_blk) of the seven input blocks at that point, every input block is found in place whether or not it
  was fetched at that point, and the run of the whole grid follows from the body's triple at a generic point.
-/
import proofs.«168312_j28389733827226_1_alg».proof.Proof.Gen.KernelIdeal.Launch
import proofs.«168312_j28389733827226_1_alg».proof.Proof.Gen.KernelIdeal.Skeleton
import proofs.«168312_j28389733827226_1_alg».proof.Proof.Gen.KernelIdeal.Points
import Idealize.ShloMosaic.Lib.Pipeline.FrameBody
import Idealize.ShloMosaic.Lib.Ring
import Idealize.ShloMosaic.Lib.Tactic

-- membership in a rectangle of 1024 × 256 entries is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch memory after the six host operations. -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is the six host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is
    not fetched its block index has not moved since the last fetch), for any proof data whose array is the
    region-entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments x, h_prev and bh are arrays of input windows (0, 1 and 6), which no point writes back; the
    other eight arguments are staged by no window and are as the region found them; and the region found all
    eleven as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans (((dats 0 c).arrAt_in 6 rfl _).trans ((hA c 6).trans (V_main_arg10 m c)))⟩) h

/-! ## The body's accesses: every load and the one store take their buffer whole -/

abbrev rA : Rect S1024x256 := Rect.unit (s := S1024x256) ![0, 0] S1024x256.size inb_S1024x256_S1024x256_0_0
abbrev rWx : Rect S256x768 := Rect.unit (s := S256x768) ![0, 0] S256x768.size inb_S256x768_S256x768_0_0
abbrev rUzr : Rect S256x512 := Rect.unit (s := S256x512) ![0, 0] S256x512.size inb_S256x512_S256x512_0_0
abbrev rUh : Rect S256x256 := Rect.unit (s := S256x256) ![0, 0] S256x256.size inb_S256x256_S256x256_0_0
abbrev rBzr : Rect S512 := Rect.unit (s := S512) ![0] S512.size inb_S512_S512_0
abbrev rBh : Rect S256 := Rect.unit (s := S256) ![0] S256.size inb_S256_S256_0

/-! ## What the body leaves in the output window's buffer -/

/-- The output block after the body, from the seven input blocks: its one store, the new hidden state
    z · h_prev + (1 − z) · tanh(…) of the blocks' rows. -/
def out_blk (x0 : Vec F S1024x256 .f32) (x1 : Vec F S1024x256 .f32) (x2 : Vec F S256x768 .bf16) (x3 : Vec F S256x512 .bf16) (x4 : Vec F S256x256 .bf16) (x5 : Vec F S512 .f32) (x6 : Vec F S256 .f32) : Vec F S1024x256 .f32 :=
  View.canon [⟨rA, k0_pay1 (k0_pay6 (View.ld x0 rA) (View.ld x1 rA) (View.ld x2 rWx) (View.ld x3 rUzr) (View.ld x4 rUh) (View.ld x5 rBzr) (View.ld x6 rBh)) (k0_pay7 (View.ld x0 rA) (View.ld x1 rA) (View.ld x2 rWx) (View.ld x3 rUzr) (View.ld x5 rBzr)) (k0_pay8 (View.ld x0 rA) (View.ld x1 rA) (View.ld x2 rWx) (View.ld x3 rUzr) (View.ld x5 rBzr))⟩]

/-- The one store covers the buffer. -/
theorem cover_out (p0 : Vec F S1024x256 .f32) (y : S1024x256.Idx) :
    ∃ pc ∈ ([⟨rA, p0⟩] : List (View.Piece (Elt F) S1024x256 .f32)), y ∈ pc.1.set :=
  View.cover_of_tiled [⟨rA, p0⟩] S1024x256.size (by rfl) y

/-! ## The body's triple -/

set_option maxHeartbeats 1000000 in
/-- The body on whole staging buffers, the inputs' at contents x0 … x6 and the output's at anything, runs to a state
    holding the inputs' as they were and the output's at out_blk of them. -/
theorem sound_kernel (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S256x768 .bf16) (harg3 : arg3.IsWhole) (arg4 : Memref sig .tc .vmem S256x512 .bf16) (harg4 : arg4.IsWhole) (arg5 : Memref sig .tc .vmem S256x256 .bf16) (harg5 : arg5.IsWhole) (arg6 : Memref sig .tc .vmem S512 .f32) (harg6 : arg6.IsWhole) (arg7 : Memref sig .tc .vmem S256 .f32) (harg7 : arg7.IsWhole) (arg8 : Memref sig .tc .vmem S1024x256 .f32) (harg8 : arg8.IsWhole)
    (x0 : Vec F S1024x256 .f32) (x1 : Vec F S1024x256 .f32) (x2 : Vec F S256x768 .bf16) (x3 : Vec F S256x512 .bf16) (x4 : Vec F S256x256 .bf16) (x5 : Vec F S512 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out_blk x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The pipeline's proof data -/

/-- On core c: the arrays as the region finds them; after the body at point t each input's buffer at its block and
    the output's at out_blk of the input blocks; nothing of the kernel's own to keep; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out_blk (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = out_blk (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its eleven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.GruSpec.lean ====
/-
  One entry of a GRU cell's new hidden state, as a function of one row of the input x, the same row of the
  previous state h, and the weights — over the extended reals, every operation exact.

  With the three input-side matrices laid side by side as Wx (256 × 768: update gate, reset gate, candidate)
  and the two hidden-side gate matrices as Uzr (256 × 512: update, reset), entry j of the row is

      z_j  = σ( Σ_k x_k · Wx[k, j]       + Σ_k h_k · Uzr[k, j]       + bz_j )
      r_j  = σ( Σ_k x_k · Wx[k, 256 + j] + Σ_k h_k · Uzr[k, 256 + j] + br_j )
      ĥ_j  = tanh( Σ_k x_k · Wx[k, 512 + j] + Σ_k (r_k · h_k) · Uh[k, j] + bh_j )
      h'_j = z_j · h_j + (1 − z_j) · ĥ_j

  where σ(t) = 1 / (1 + e^(−t)). Both programs compute exactly this, with the sums grouped exactly so; the
  kernel a block of 1024 rows at a time, the reference all 65536 rows at once.
-/
import Idealize.ShloMosaic.PureOps.Ideal
import Idealize.ShloMosaic.Lib.ValueIdx

noncomputable section

namespace Cert.GruSpec

open Idealize.ShloMosaic Idealize.ShloMosaic.ValueIdx

/-- The word 0x3F800000 is the real number 1: sign 0, biased exponent 127, fraction 0. -/
theorem one_word : Ideal.ofBits .f32 0x3F800000#32 = (1 : EReal) := by
  simp [Ideal.ofBits, Ideal.ieee, -EReal.coe_mul]; norm_num

/-- Column j of the update gate's block of a 768-column matrix, -/
abbrev colZ (j : Fin 256) : Fin 768 := ⟨j.val, by omega⟩
/-- of the reset gate's block, -/
abbrev colR (j : Fin 256) : Fin 768 := ⟨256 + j.val, by omega⟩
/-- and of the candidate's block. -/
abbrev colH (j : Fin 256) : Fin 768 := ⟨512 + j.val, by omega⟩
/-- Column j of the update gate's block of a 512-column matrix, -/
abbrev colZ' (j : Fin 256) : Fin 512 := ⟨j.val, by omega⟩
/-- and of the reset gate's block. -/
abbrev colR' (j : Fin 256) : Fin 512 := ⟨256 + j.val, by omega⟩

/-- The update gate at column j. -/
def gateZ (xr hr : Fin 256 → EReal) (Wx : (⟨2, ![256, 768]⟩ : Shape).Idx → EReal) (Uzr : (⟨2, ![256, 512]⟩ : Shape).Idx → EReal)
    (bz : Fin 256 → EReal) (j : Fin 256) : EReal :=
  Ideal.logistic (((∑ k : Fin 256, xr k * Wx (ix2 k (colZ j))) + (∑ k : Fin 256, hr k * Uzr (ix2 k (colZ' j)))) + bz j)

/-- The reset gate at column j. -/
def gateR (xr hr : Fin 256 → EReal) (Wx : (⟨2, ![256, 768]⟩ : Shape).Idx → EReal) (Uzr : (⟨2, ![256, 512]⟩ : Shape).Idx → EReal)
    (br : Fin 256 → EReal) (j : Fin 256) : EReal :=
  Ideal.logistic (((∑ k : Fin 256, xr k * Wx (ix2 k (colR j))) + (∑ k : Fin 256, hr k * Uzr (ix2 k (colR' j)))) + br j)

/-- The candidate state at column j: the reset gate scales the previous state before its product with Uh. -/
def cand (xr hr : Fin 256 → EReal) (Wx : (⟨2, ![256, 768]⟩ : Shape).Idx → EReal) (Uzr : (⟨2, ![256, 512]⟩ : Shape).Idx → EReal)
    (Uh : (⟨2, ![256, 256]⟩ : Shape).Idx → EReal) (br bh : Fin 256 → EReal) (j : Fin 256) : EReal :=
  Ideal.tanh (((∑ k : Fin 256, xr k * Wx (ix2 k (colH j))) + (∑ k : Fin 256, (gateR xr hr Wx Uzr br k * hr k) * Uh (ix2 k j))) + bh j)

/-- Entry j of the new hidden state's row: the update gate mixes the previous state with the candidate. The 1 is kept
    as its word, the same in both programs. -/
def gruRow (xr hr : Fin 256 → EReal) (Wx : (⟨2, ![256, 768]⟩ : Shape).Idx → EReal) (Uzr : (⟨2, ![256, 512]⟩ : Shape).Idx → EReal)
    (Uh : (⟨2, ![256, 256]⟩ : Shape).Idx → EReal) (bz br bh : Fin 256 → EReal) (j : Fin 256) : EReal :=
  gateZ xr hr Wx Uzr bz j * hr j + (Ideal.ofBits .f32 0x3F800000#32 - gateZ xr hr Wx Uzr bz j) * cand xr hr Wx Uzr Uh br bh j

/-- The whole result array: entry (r, q) is the row function at column q of rows r of x and of h_prev. -/
def gruArr (X H : (⟨2, ![65536, 256]⟩ : Shape).Idx → EReal) (Wx : (⟨2, ![256, 768]⟩ : Shape).Idx → EReal)
    (Uzr : (⟨2, ![256, 512]⟩ : Shape).Idx → EReal) (Uh : (⟨2, ![256, 256]⟩ : Shape).Idx → EReal)
    (bz br bh : (⟨1, ![256]⟩ : Shape).Idx → EReal) : (⟨2, ![65536, 256]⟩ : Shape).Idx → EReal :=
  fun i => gruRow (fun k => X (ix2 (i 0) k)) (fun k => H (ix2 (i 0) k)) Wx Uzr Uh (fun j => bz (ix1 j)) (fun j => br (ix1 j))
    (fun j => bh (ix1 j)) (i 1)

end Cert.GruSpec

end
-- ==== Proof.KernelRow.lean ====
/-
  What the kernel's body stores at row p and column q of its output block, at the ideal values: the GRU row
  function of row p of the x block and of the h_prev block.

  The body multiplies the x block by the resident 256 × 768 input weights and the h_prev block by the resident
  256 × 512 hidden weights, each into a zero accumulator, so an entry of a product is the plain sum over k. The gates
  read column blocks of the two products (offsets 0, 256 and 512, and 0 and 256); the two gate biases are the two
  halves of one 512-vector, each reshaped to one row and broadcast down the 1024 rows, so at (p, q) a bias is its
  entry q. The candidate's product has as left operand the reset gate's block times the h_prev block, entry by
  entry. Narrowing to bf16 and same-shape casts change nothing at the ideal values.
-/
import proofs.«168312_j28389733827226_1_alg».proof.Proof.Gen.KernelIdeal.Skeleton
import proofs.«168312_j28389733827226_1_alg».proof.Proof.GruSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Cert.KernelIdeal Cert.KernelIdeal.Gen Cert.GruSpec
open Idealize.ShloMosaic Idealize.ShloMosaic.ValueIdx

/-! The 768-column product: which entries of the operands an entry of the product reads. -/
theorem lhs_x_0 (i : S1024x768.Idx) (q : dot_S1024x256_S256x768_S1024x768_1_0_0_1_n_n.contr.Idx) : (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
theorem lhs_x_1 (i : S1024x768.Idx) (q : dot_S1024x256_S256x768_S1024x768_1_0_0_1_n_n.contr.Idx) : (dot_S1024x256_S256x768_S1024x768_1_0_0_1_n_n.lhsIdx i q 1).val = (q ⟨0, by decide⟩).val :=
  dot_S1024x256_S256x768_S1024x768_1_0_0_1_n_n.lhsIdx_val_of_single rfl i q
theorem rhs_x_0 (i : S1024x768.Idx) (q : dot_S1024x256_S256x768_S1024x768_1_0_0_1_n_n.contr.Idx) : (dot_S1024x256_S256x768_S1024x768_1_0_0_1_n_n.rhsIdx i q 0).val = (q ⟨0, by decide⟩).val :=
  dot_S1024x256_S256x768_S1024x768_1_0_0_1_n_n.rhsIdx_val_of_single rfl i q
theorem rhs_x_1 (i : S1024x768.Idx) (q : dot_S1024x256_S256x768_S1024x768_1_0_0_1_n_n.contr.Idx) : (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl
/-- Into a zero accumulator, entry (p, c) of the product is the sum over k of l[p, k] · w[k, c]. -/
theorem mm_x (l : FVec Ideal S1024x256 .bf16) (w : FVec Ideal S256x768 .bf16) (p : Fin 1024) (c : Fin 768) :
    matmul dot_S1024x256_S256x768_S1024x768_1_0_0_1_n_n none l w (constant (F := Ideal) S1024x768 .f32 0x00000000#32) (ix2 p c) = ∑ k : Fin 256, l (ix2 p k) * w (ix2 k c) := by
  simp only [matmul]
  rw [Ideal.matmul_constant_zero_apply, ← Equiv.sum_comp (ValueIdx.contrEquiv1 dot_S1024x256_S256x768_S1024x768_1_0_0_1_n_n 256 rfl rfl).symm]
  refine Finset.sum_congr rfl fun k _ => ?_
  have hk := ValueIdx.contrEquiv1_symm_val dot_S1024x256_S256x768_S1024x768_1_0_0_1_n_n 256 rfl rfl k
  have el : dot_S1024x256_S256x768_S1024x768_1_0_0_1_n_n.lhsIdx (ix2 p c) ((ValueIdx.contrEquiv1 dot_S1024x256_S256x768_S1024x768_1_0_0_1_n_n 256 rfl rfl).symm k) = ix2 p k := funext fun a => Fin.ext (by
    match a with
    | ⟨0, _⟩ => exact lhs_x_0 _ _
    | ⟨1, _⟩ => exact (lhs_x_1 _ _).trans hk)
  have er : dot_S1024x256_S256x768_S1024x768_1_0_0_1_n_n.rhsIdx (ix2 p c) ((ValueIdx.contrEquiv1 dot_S1024x256_S256x768_S1024x768_1_0_0_1_n_n 256 rfl rfl).symm k) = ix2 k c := funext fun a => Fin.ext (by
    match a with
    | ⟨0, _⟩ => exact (rhs_x_0 _ _).trans hk
    | ⟨1, _⟩ => exact rhs_x_1 _ _)
  rw [el, er]

/-! The 512-column product: which entries of the operands an entry of the product reads. -/
theorem lhs_h_0 (i : S1024x512.Idx) (q : dot_S1024x256_S256x512_S1024x512_1_0_0_1_n_n.contr.Idx) : (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_h_1 (i : S1024x512.Idx) (q : dot_S1024x256_S256x512_S1024x512_1_0_0_1_n_n.contr.Idx) : (dot_S1024x256_S256x512_S1024x512_1_0_0_1_n_n.lhsIdx i q 1).val = (q ⟨0, by decide⟩).val :=
  dot_S1024x256_S256x512_S1024x512_1_0_0_1_n_n.lhsIdx_val_of_single rfl i q
theorem rhs_h_0 (i : S1024x512.Idx) (q : dot_S1024x256_S256x512_S1024x512_1_0_0_1_n_n.contr.Idx) : (dot_S1024x256_S256x512_S1024x512_1_0_0_1_n_n.rhsIdx i q 0).val = (q ⟨0, by decide⟩).val :=
  dot_S1024x256_S256x512_S1024x512_1_0_0_1_n_n.rhsIdx_val_of_single rfl i q
theorem rhs_h_1 (i : S1024x512.Idx) (q : dot_S1024x256_S256x512_S1024x512_1_0_0_1_n_n.contr.Idx) : (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl
/-- Into a zero accumulator, entry (p, c) of the product is the sum over k of l[p, k] · w[k, c]. -/
theorem mm_h (l : FVec Ideal S1024x256 .bf16) (w : FVec Ideal S256x512 .bf16) (p : Fin 1024) (c : Fin 512) :
    matmul dot_S1024x256_S256x512_S1024x512_1_0_0_1_n_n none l w (constant (F := Ideal) S1024x512 .f32 0x00000000#32) (ix2 p c) = ∑ k : Fin 256, l (ix2 p k) * w (ix2 k c) := by
  simp only [matmul]
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p c) ((ValueIdx.contrEquiv1 dot_S1024x256_S256x512_S1024x512_1_0_0_1_n_n 256 rfl rfl).symm k) = ix2 p k := funext fun a => Fin.ext (by
    match a with
    | ⟨0, _⟩ => exact lhs_h_0 _ _
    | ⟨1, _⟩ => exact (lhs_h_1 _ _).trans hk)
  have er : dot_S1024x256_S256x512_S1024x512_1_0_0_1_n_n.rhsIdx (ix2 p c) ((ValueIdx.contrEquiv1 dot_S1024x256_S256x512_S1024x512_1_0_0_1_n_n 256 rfl rfl).symm k) = ix2 k c := funext fun a => Fin.ext (by
    match a with
    | ⟨0, _⟩ => exact (rhs_h_0 _ _).trans hk
    | ⟨1, _⟩ => exact rhs_h_1 _ _)
  rw [el, er]

/-! The 256-column product: which entries of the operands an entry of the product reads. -/
theorem lhs_u_0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_u_1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem rhs_u_0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem rhs_u_1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- Into a zero accumulator, entry (p, c) of the product is the sum over k of l[p, k] · w[k, c]. -/
theorem mm_u (l : FVec Ideal S1024x256 .bf16) (w : FVec Ideal S256x256 .bf16) (p : Fin 1024) (c : Fin 256) :
    matmul dot_S1024x256_S256x256_S1024x256_1_0_0_1_n_n none l w (constant (F := Ideal) S1024x256 .f32 0x00000000#32) (ix2 p c) = ∑ k : Fin 256, l (ix2 p k) * w (ix2 k c) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p c) ((ValueIdx.contrEquiv1 dot_S1024x256_S256x256_S1024x256_1_0_0_1_n_n 256 rfl rfl).symm k) = ix2 p k := funext fun a => Fin.ext (by
    match a with
    | ⟨0, _⟩ => exact lhs_u_0 _ _
    | ⟨1, _⟩ => exact (lhs_u_1 _ _).trans hk)
  have er : dot_S1024x256_S256x256_S1024x256_1_0_0_1_n_n.rhsIdx (ix2 p c) ((ValueIdx.contrEquiv1 dot_S1024x256_S256x256_S1024x256_1_0_0_1_n_n 256 rfl rfl).symm k) = ix2 k c := funext fun a => Fin.ext (by
    match a with
    | ⟨0, _⟩ => exact (rhs_u_0 _ _).trans hk
    | ⟨1, _⟩ => exact rhs_u_1 _ _)
  rw [el, er]

/-! ## The layout pieces read at an index -/

/-- A 256-vector reshaped to one row and broadcast down 1024 rows reads, at (p, q), its entry q. -/
theorem bias_row (b : FVec Ideal S256 .f32) (p : Fin 1024) (q : Fin 256) :
    broadcastTo S1024x256 (shapeCast S1x256 b shapeCasts_S256_S1x256) broadcasts_S1x256_S1024x256 (ix2 p q) = b (ix1 q) := by
  rw [broadcastTo_1b_ab_apply, shapeCast_a_1a_apply]

/-- The first half of a 512-vector at q is the vector at q, -/
theorem half_lo (v : FVec Ideal S512 .f32) (q : Fin 256) :
    extractStridedSlice S256 ![0] v slices_S512_o0_S256 (ix1 q) = v (ix1 (colZ' q)) :=
  extractStridedSlice_apply ![0] v slices_S512_o0_S256 (ix1 q) (ix1 (colZ' q)) (fun a => match a with
    | ⟨0, _⟩ => by show q.val = 0 + q.val; omega)
/-- and the second half at q is the vector at 256 + q. -/
theorem half_hi (v : FVec Ideal S512 .f32) (q : Fin 256) :
    extractStridedSlice S256 ![256] v slices_S512_o256_S256 (ix1 q) = v (ix1 (colR' q)) :=
  extractStridedSlice_apply ![256] v slices_S512_o256_S256 (ix1 q) (ix1 (colR' q)) (fun a => match a with
    | ⟨0, _⟩ => by show 256 + q.val = 256 + q.val; omega)

variable (v0 v1 : Vec Ideal S1024x256 .f32) (v4 : Vec Ideal S256x768 .bf16) (v6 : Vec Ideal S256x512 .bf16)
  (v8 : Vec Ideal S256x256 .bf16) (v17 : Vec Ideal S512 .f32) (v21 : Vec Ideal S256 .f32) (p : Fin 1024) (q : Fin 256)

/-! ## The two resident products -/

theorem pay2_at (c : Fin 768) : k0_pay2 v0 v4 (ix2 p c) = ∑ k : Fin 256, v0 (ix2 p k) * v4 (ix2 k c) := by
  unfold k0_pay2
  rw [shapeCast_self]
  exact mm_x _ _ p c

theorem pay3_at (c : Fin 512) : k0_pay3 v1 v6 (ix2 p c) = ∑ k : Fin 256, v1 (ix2 p k) * v6 (ix2 k c) := by
  unfold k0_pay3
  rw [shapeCast_self]
  exact mm_h _ _ p c

theorem pay4_eq : k0_pay4 v17 = v17 := by
  unfold k0_pay4
  exact shapeCast_self _ _

/-! ## The update gate -/

theorem pay5_at : k0_pay5 v0 v1 v4 v6 v17 (ix2 p q) = gateZ (fun k => v0 (ix2 p k)) (fun k => v1 (ix2 p k)) v4 v6 (fun j => v17 (ix1 (colZ' j))) q := by
  unfold k0_pay5
  show Ideal.logistic ((extractStridedSlice S1024x256 ![0, 0] (k0_pay2 v0 v4) slices_S1024x768_o0_0_S1024x256 (ix2 p q)
      + extractStridedSlice S1024x256 ![0, 0] (k0_pay3 v1 v6) slices_S1024x512_o0_0_S1024x256 (ix2 p q))
      + broadcastTo S1024x256 (shapeCast S1x256 (extractStridedSlice S256 ![0] (k0_pay4 v17) slices_S512_o0_S256) shapeCasts_S256_S1x256) broadcasts_S1x256_S1024x256 (ix2 p q)) = _
  rw [slice2_axis1_apply 0 (k0_pay2 v0 v4) slices_S1024x768_o0_0_S1024x256 p q (colZ q) (Nat.zero_add _).symm,
    slice2_axis1_apply 0 (k0_pay3 v1 v6) slices_S1024x512_o0_0_S1024x256 p q (colZ' q) (Nat.zero_add _).symm,
    bias_row, half_lo, pay4_eq, pay2_at, pay3_at]
  rfl

/-! ## The reset gate's block -/

/-- The reset gate over the whole block: the body's term for it. -/
def rgate : FVec Ideal S1024x256 .f32 :=
  logistic (addf (addf (extractStridedSlice S1024x256 ![0, 256] (k0_pay2 v0 v4) slices_S1024x768_o0_256_S1024x256)
      (extractStridedSlice S1024x256 ![0, 256] (k0_pay3 v1 v6) slices_S1024x512_o0_256_S1024x256))
    (broadcastTo S1024x256 (shapeCast S1x256 (extractStridedSlice S256 ![256] (k0_pay4 v17) slices_S512_o256_S256) shapeCasts_S256_S1x256) broadcasts_S1x256_S1024x256))

theorem rgate_at : rgate v0 v1 v4 v6 v17 (ix2 p q) = gateR (fun k => v0 (ix2 p k)) (fun k => v1 (ix2 p k)) v4 v6 (fun j => v17 (ix1 (colR' j))) q := by
  unfold rgate
  show Ideal.logistic ((extractStridedSlice S1024x256 ![0, 256] (k0_pay2 v0 v4) slices_S1024x768_o0_256_S1024x256 (ix2 p q)
      + extractStridedSlice S1024x256 ![0, 256] (k0_pay3 v1 v6) slices_S1024x512_o0_256_S1024x256 (ix2 p q))
      + broadcastTo S1024x256 (shapeCast S1x256 (extractStridedSlice S256 ![256] (k0_pay4 v17) slices_S512_o256_S256) shapeCasts_S256_S1x256) broadcasts_S1x256_S1024x256 (ix2 p q)) = _
  rw [slice2_axis1_apply 256 (k0_pay2 v0 v4) slices_S1024x768_o0_256_S1024x256 p q (colR q) rfl,
    slice2_axis1_apply 256 (k0_pay3 v1 v6) slices_S1024x512_o0_256_S1024x256 p q (colR' q) rfl,
    bias_row, half_hi, pay4_eq, pay2_at, pay3_at]
  rfl

/-! ## The candidate -/

theorem pay6_at : k0_pay6 v0 v1 v4 v6 v8 v17 v21 (ix2 p q)
    = cand (fun k => v0 (ix2 p k)) (fun k => v1 (ix2 p k)) v4 v6 v8 (fun j => v17 (ix1 (colR' j))) (fun j => v21 (ix1 j)) q := by
  unfold k0_pay6
  show Ideal.tanh ((extractStridedSlice S1024x256 ![0, 512] (k0_pay2 v0 v4) slices_S1024x768_o0_512_S1024x256 (ix2 p q)
      + matmul dot_S1024x256_S256x256_S1024x256_1_0_0_1_n_n none (truncf .bf16 (mulf (rgate v0 v1 v4 v6 v17) v1) bitsLt_bf16_f32)
          (shapeCast S256x256 v8 shapeCasts_S256x256_S256x256) (constant (F := Ideal) S1024x256 .f32 0x00000000#32) (ix2 p q))
      + broadcastTo S1024x256 (shapeCast S1x256 v21 shapeCasts_S256_S1x256) broadcasts_S1x256_S1024x256 (ix2 p q)) = _
  rw [slice2_axis1_apply 512 (k0_pay2 v0 v4) slices_S1024x768_o0_512_S1024x256 p q (colH q) rfl,
    shapeCast_self, mm_u, bias_row, pay2_at]
  unfold cand
  refine congrArg Ideal.tanh (congrArg (· + v21 (ix1 q)) (congrArg (_ + ·) (Finset.sum_congr rfl fun k _ => ?_)))
  show (rgate v0 v1 v4 v6 v17 (ix2 p k) * v1 (ix2 p k)) * v8 (ix2 k q) = _
  rw [rgate_at]

/-! ## The mix -/

theorem pay7_at : k0_pay7 v0 v1 v4 v6 v17 (ix2 p q) = gateZ (fun k => v0 (ix2 p k)) (fun k => v1 (ix2 p k)) v4 v6 (fun j => v17 (ix1 (colZ' j))) q * v1 (ix2 p q) := by
  unfold k0_pay7
  show k0_pay5 v0 v1 v4 v6 v17 (ix2 p q) * v1 (ix2 p q) = _
  rw [pay5_at]

theorem pay8_at : k0_pay8 v0 v1 v4 v6 v17 (ix2 p q)
    = Ideal.ofBits .f32 0x3F800000#32 - gateZ (fun k => v0 (ix2 p k)) (fun k => v1 (ix2 p k)) v4 v6 (fun j => v17 (ix1 (colZ' j))) q := by
  unfold k0_pay8
  show Ideal.ofBits .f32 0x3F800000#32 - k0_pay5 v0 v1 v4 v6 v17 (ix2 p q) = _
  rw [pay5_at]

/-- The stored value at (p, q): the row function at column q of rows p of the two blocks. -/
theorem store_at :
    k0_pay1 (k0_pay6 v0 v1 v4 v6 v8 v17 v21) (k0_pay7 v0 v1 v4 v6 v17) (k0_pay8 v0 v1 v4 v6 v17) (ix2 p q)
      = gruRow (fun k => v0 (ix2 p k)) (fun k => v1 (ix2 p k)) v4 v6 v8 (fun j => v17 (ix1 (colZ' j))) (fun j => v17 (ix1 (colR' j))) (fun j => v21 (ix1 j)) q := by
  show k0_pay7 v0 v1 v4 v6 v17 (ix2 p q) + k0_pay8 v0 v1 v4 v6 v17 (ix2 p q) * k0_pay6 v0 v1 v4 v6 v8 v17 v21 (ix2 p q) = _
  rw [pay7_at, pay8_at, pay6_at]
  rfl

end Cert.KernelIdeal.Row

end
-- ==== Proof.LibNary3.lean ====
/-
  A host operation that reads three buffers, at its own result buffer.

  A host operation over a family of operand buffers writes its function of the operands' contents. When the family
  is a literal list of three references, the contents can be handed to the function one reference at a time — the
  first's, then the second's, then the third's — instead of as "the contents at the k-th reference" under a binder.
  In that form each operand's contents is again a buffer read at a literal reference, which the fold of the host
  operations that precede it can go on evaluating. (The library states this form for four references.)
-/
import Idealize.ShloMosaic.Lib.StableHlo.Run

namespace Cert.LibNary3

open Idealize.ShloMosaic Idealize.ShloMosaic.StableHlo

variable {τ : Topo} {sig : RefSig} {Val : EltTy → Type}
variable {x a b y : Ref sig .tc}

/-- The result of a three-operand host operation at its result buffer: its function of the three operands' contents,
    each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3
-- ==== Proof.KernelWhole.lean ====
/-
  The kernel program's result array after the run, at the ideal values: entry (r, q) is the GRU row function of
  rows r of x and of h_prev, over the argument arrays as launched.

  Point t of the grid writes back block t of the output: rows 1024·t … 1024·t + 1023, all 256 columns. What it writes
  is the body's stored block, whose entry (p, q) is the row function of rows p of the x and h_prev blocks it was handed
  — rows 1024·t + p of the arrays — and of the five resident operands, which are whole arrays (their one block is block 0).
  The host operations before the region made those: the three input-side matrices side by side, the two hidden gate
  matrices side by side, the third hidden matrix, and the two gate biases end to end (so the update gate's bias is
  the first half and the reset gate's the second); narrowing to bf16 changes nothing at the ideal values. The 64
  blocks tile the 65536 rows (row r lies in block r / 1024), so the array ends as one function of the arguments.
-/
import proofs.«168312_j28389733827226_1_alg».proof.Proof.KernelIdealFrame
import proofs.«168312_j28389733827226_1_alg».proof.Proof.KernelRow
import proofs.«168312_j28389733827226_1_alg».proof.Proof.LibNary3
import proofs.«168312_j28389733827226_1_alg».proof.Proof.GruSpec
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Hand Cert.KernelIdeal.Row Cert.GruSpec Cert.LibNary3
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## The stored block as a function of the input blocks -/

theorem hz2 : (![0, 0] : Fin 2 → Nat) = fun _ => 0 := funext fun a => by fin_cases a <;> rfl
theorem hz1 : (![0] : Fin 1 → Nat) = fun _ => 0 := funext fun a => by fin_cases a <;> rfl

/-- Every load takes its buffer whole and the one store covers the block, so the block after the body is the stored
    value: at (p, q) the row function of rows p of the first two blocks. -/
theorem out_blk_at (b0 b1 : Vec Ideal S1024x256 .f32) (b2 : Vec Ideal S256x768 .bf16) (b3 : Vec Ideal S256x512 .bf16)
    (b4 : Vec Ideal S256x256 .bf16) (b5 : Vec Ideal S512 .f32) (b6 : Vec Ideal S256 .f32) (p : Fin 1024) (q : Fin 256) :
    out_blk (F := Ideal) b0 b1 b2 b3 b4 b5 b6 (ix2 p q)
      = gruRow (fun k => b0 (ix2 p k)) (fun k => b1 (ix2 p k)) b2 b3 b4 (fun j => b5 (ix1 (colZ' j))) (fun j => b5 (ix1 (colR' j)))
          (fun j => b6 (ix1 j)) q := by
  unfold out_blk
  rw [View.canon_unit_zero hz2]
  simp only [View.ld_unit_zero (S := S1024x256) hz2, View.ld_unit_zero (S := S256x768) hz2, View.ld_unit_zero (S := S256x512) hz2,
    View.ld_unit_zero (S := S256x256) hz2, View.ld_unit_zero (S := S512) hz1, View.ld_unit_zero (S := S256) hz1]
  exact store_at b0 b1 b2 b3 b4 b5 b6 p q

theorem out_blk_fun (b0 b1 : Vec Ideal S1024x256 .f32) (b2 : Vec Ideal S256x768 .bf16) (b3 : Vec Ideal S256x512 .bf16)
    (b4 : Vec Ideal S256x256 .bf16) (b5 : Vec Ideal S512 .f32) (b6 : Vec Ideal S256 .f32) :
    out_blk (F := Ideal) b0 b1 b2 b3 b4 b5 b6
      = fun y => gruRow (fun k => b0 (ix2 (y 0) k)) (fun k => b1 (ix2 (y 0) k)) b2 b3 b4 (fun j => b5 (ix1 (colZ' j)))
          (fun j => b5 (ix1 (colR' j))) (fun j => b6 (ix1 j)) (y 1) := by
  funext y
  obtain ⟨p, q, rfl⟩ : ∃ (p : Fin 1024) (q : Fin 256), y = ix2 p q := ⟨y 0, y 1, eq_ix2 y⟩
  exact out_blk_at b0 b1 b2 b3 b4 b5 b6 p q

/-! ## What the host operations before the region leave in the resident operands' arrays -/

/-- Evaluates the fold of the six host operations at one buffer: each operation's result at its own buffer is its
    function of its operands' contents, and at any other buffer what was there. -/
local macro "host_results" : tactic =>
  `(tactic| (simp only [after_cons, after_nil]
             repeat (first
               | rw [nary3_result] | rw [unary_result] | rw [binary_result]
               | (rw [unary_result_ne]; rotate_left; decide)
               | (rw [binary_result_ne]; rotate_left; decide)
               | (rw [nary_result_ne]; rotate_left; decide))))

theorem V_Wx (c : Dev nD) : (V m c main_v1 : S256x768.Idx → EReal) = (concatenate S256x768 1 [⟨S256x256, m ((c : Thread nD τ).loc main_arg2)⟩, ⟨S256x256, m ((c : Thread nD τ).loc main_arg5)⟩, ⟨S256x256, m ((c : Thread nD τ).loc main_arg8)⟩] concatenates_S256x256_S256x256_S256x256_S256x768_d1) := by
  dsimp only [V, hostOps0]; host_results; rfl

theorem V_Uzr (c : Dev nD) : (V m c main_v3 : S256x512.Idx → EReal) = (concatenate S256x512 1 [⟨S256x256, m ((c : Thread nD τ).loc main_arg3)⟩, ⟨S256x256, m ((c : Thread nD τ).loc main_arg6)⟩] concatenates_S256x256_S256x256_S256x512_d1) := by
  dsimp only [V, hostOps0]; host_results; rfl

theorem V_Uh (c : Dev nD) : (V m c main_v4 : S256x256.Idx → EReal) = m ((c : Thread nD τ).loc main_arg9) := by
  dsimp only [V, hostOps0]; host_results; rfl

theorem V_bzr (c : Dev nD) : (V m c main_v5 : S512.Idx → EReal) = (concatenate S512 0 [⟨S256, m ((c : Thread nD τ).loc main_arg4)⟩, ⟨S256, m ((c : Thread nD τ).loc main_arg7)⟩] concatenates_S256_S256_S512_d0) := by
  dsimp only [V, hostOps0]; host_results

/-- Two 256-vectors laid end to end: the first half is the first, -/
theorem cat_lo (bz br : S256.Idx → EReal) (j : Fin 256) :
    concatenate S512 0 [⟨S256, bz⟩, ⟨S256, br⟩] concatenates_S256_S256_S512_d0 (ix1 (colZ' j)) = bz (ix1 j) :=
  concatenate_pair_apply_left 0 bz br concatenates_S256_S256_S512_d0 (ix1 (colZ' j)) rfl (ix1 j) (fun b => match b with
    | ⟨0, _⟩ => rfl)
/-- and the second half is the second. -/
theorem cat_hi (bz br : S256.Idx → EReal) (j : Fin 256) :
    concatenate S512 0 [⟨S256, bz⟩, ⟨S256, br⟩] concatenates_S256_S256_S512_d0 (ix1 (colR' j)) = br (ix1 j) :=
  concatenate_pair_apply_right 0 bz br concatenates_S256_S256_S512_d0 (ix1 (colR' j)) rfl rfl (ix1 j)
    (fun b hb => absurd (Subsingleton.elim _ _) hb) (by show j.val + 256 = 256 + j.val; omega)

/-! ## Where the blocks sit -/

/-- The printed index maps over the grid: x, h_prev and the output move with the point along the rows; the five
    resident operands stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 1) = 0
    ∧ win0_7.index t (0 : Fin 2) = t.val ∧ win0_7.index t (1 : Fin 2) = 0 :=
  (by decide +kernel : ∀ t : Fin grid0.N, _)

theorem t_lt (t : Fin cfg0.N) : t.val < 64 := lt_of_lt_of_eq t.isLt N_0

/-- Row 1024·t + p of the array. -/
abbrev rowOf (t : Fin cfg0.N) (p : Fin 1024) : Fin 65536 := ⟨t.val * 1024 + p.val, by have := t_lt t; omega⟩

/-! A block's entry (p, k) sits in its array at row 1024·t + p, column k; -/
theorem emb_x (t : Fin cfg0.N) (p : Fin 1024) (k : Fin 256) : ((cfg0.win 0).blk t).view.emb (ix2 p k) = ix2 (rowOf t p) k := by
  obtain ⟨e0, e1, -⟩ := idx_facts t
  funext a; apply Fin.ext
  match a with
  | ⟨0, _⟩ => show win0_0.index t (0 : Fin 2) * 1024 + 1 * p.val = t.val * 1024 + p.val; omega
  | ⟨1, _⟩ => show win0_0.index t (1 : Fin 2) * 256 + 1 * k.val = k.val; omega
theorem emb_h (t : Fin cfg0.N) (p : Fin 1024) (k : Fin 256) : ((cfg0.win 1).blk t).view.emb (ix2 p k) = ix2 (rowOf t p) k := by
  obtain ⟨-, -, e0, e1, -⟩ := idx_facts t
  funext a; apply Fin.ext
  match a with
  | ⟨0, _⟩ => show win0_1.index t (0 : Fin 2) * 1024 + 1 * p.val = t.val * 1024 + p.val; omega
  | ⟨1, _⟩ => show win0_1.index t (1 : Fin 2) * 256 + 1 * k.val = k.val; omega
theorem emb_o (t : Fin cfg0.N) (p : Fin 1024) (q : Fin 256) : ((cfg0.win 7).blk t).view.emb (ix2 p q) = ix2 (rowOf t p) q := by
  obtain ⟨-, -, -, -, -, -, -, -, -, -, -, -, e0, e1⟩ := idx_facts t
  funext a; apply Fin.ext
  match a with
  | ⟨0, _⟩ => show win0_7.index t (0 : Fin 2) * 1024 + 1 * p.val = t.val * 1024 + p.val; omega
  | ⟨1, _⟩ => show win0_7.index t (1 : Fin 2) * 256 + 1 * q.val = q.val; omega
/-! and a resident operand's one block is the whole array. -/
theorem emb_Wx (t : Fin cfg0.N) (y : S256x768.Idx) : ((cfg0.win 2).blk t).view.emb y = y := by
  obtain ⟨-, -, -, -, e0, e1, -⟩ := idx_facts t
  funext a; apply Fin.ext
  match a with
  | ⟨0, _⟩ => show win0_2.index t (0 : Fin 2) * 256 + 1 * (y 0).val = (y 0).val; omega
  | ⟨1, _⟩ => show win0_2.index t (1 : Fin 2) * 768 + 1 * (y 1).val = (y 1).val; omega
theorem emb_Uzr (t : Fin cfg0.N) (y : S256x512.Idx) : ((cfg0.win 3).blk t).view.emb y = y := by
  obtain ⟨-, -, -, -, -, -, e0, e1, -⟩ := idx_facts t
  funext a; apply Fin.ext
  match a with
  | ⟨0, _⟩ => show win0_3.index t (0 : Fin 2) * 256 + 1 * (y 0).val = (y 0).val; omega
  | ⟨1, _⟩ => show win0_3.index t (1 : Fin 2) * 512 + 1 * (y 1).val = (y 1).val; omega
theorem emb_Uh (t : Fin cfg0.N) (y : S256x256.Idx) : ((cfg0.win 4).blk t).view.emb y = y := by
  obtain ⟨-, -, -, -, -, -, -, -, e0, e1, -⟩ := idx_facts t
  funext a; apply Fin.ext
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem emb_bzr (t : Fin cfg0.N) (y : S512.Idx) : ((cfg0.win 5).blk t).view.emb y = y := by
  obtain ⟨-, -, -, -, -, -, -, -, -, -, e0, -⟩ := idx_facts t
  funext a; apply Fin.ext
  match a with
  | ⟨0, _⟩ => show win0_5.index t (0 : Fin 1) * 512 + 1 * (y 0).val = (y 0).val; omega
theorem emb_bh (t : Fin cfg0.N) (y : S256.Idx) : ((cfg0.win 6).blk t).view.emb y = y := by
  obtain ⟨-, -, -, -, -, -, -, -, -, -, -, e0, -⟩ := idx_facts t
  funext a; apply Fin.ext
  match a with
  | ⟨0, _⟩ => show win0_6.index t (0 : Fin 1) * 256 + 1 * (y 0).val = (y 0).val; omega

/-! ## The blocks the body is handed, read off the arguments -/

theorem blk_x (c : Dev nD) (t : Fin cfg0.N) (p : Fin 1024) (k : Fin 256) :
    iblk m c 0 t (ix2 p k) = m ((c : Thread nD τ).loc main_arg0) (ix2 (rowOf t p) k) := by
  show V m c main_arg0 (((cfg0.win 0).blk t).view.emb (ix2 p k)) = _
  rw [emb_x, V_main_arg0]
theorem blk_h (c : Dev nD) (t : Fin cfg0.N) (p : Fin 1024) (k : Fin 256) :
    iblk m c 1 t (ix2 p k) = m ((c : Thread nD τ).loc main_arg1) (ix2 (rowOf t p) k) := by
  show V m c main_arg1 (((cfg0.win 1).blk t).view.emb (ix2 p k)) = _
  rw [emb_h, V_main_arg1]
theorem blk_Wx (c : Dev nD) (t : Fin cfg0.N) : (iblk m c 2 t : S256x768.Idx → EReal) = (concatenate S256x768 1 [⟨S256x256, m ((c : Thread nD τ).loc main_arg2)⟩, ⟨S256x256, m ((c : Thread nD τ).loc main_arg5)⟩, ⟨S256x256, m ((c : Thread nD τ).loc main_arg8)⟩] concatenates_S256x256_S256x256_S256x256_S256x768_d1) := by
  funext y
  show V m c main_v1 (((cfg0.win 2).blk t).view.emb y) = _
  rw [emb_Wx, V_Wx]
theorem blk_Uzr (c : Dev nD) (t : Fin cfg0.N) : (iblk m c 3 t : S256x512.Idx → EReal) = (concatenate S256x512 1 [⟨S256x256, m ((c : Thread nD τ).loc main_arg3)⟩, ⟨S256x256, m ((c : Thread nD τ).loc main_arg6)⟩] concatenates_S256x256_S256x256_S256x512_d1) := by
  funext y
  show V m c main_v3 (((cfg0.win 3).blk t).view.emb y) = _
  rw [emb_Uzr, V_Uzr]
theorem blk_Uh (c : Dev nD) (t : Fin cfg0.N) : (iblk m c 4 t : S256x256.Idx → EReal) = m ((c : Thread nD τ).loc main_arg9) := by
  funext y
  show V m c main_v4 (((cfg0.win 4).blk t).view.emb y) = _
  rw [emb_Uh, V_Uh]
theorem blk_bz (c : Dev nD) (t : Fin cfg0.N) (j : Fin 256) : iblk m c 5 t (ix1 (colZ' j)) = m ((c : Thread nD τ).loc main_arg4) (ix1 j) := by
  show V m c main_v5 (((cfg0.win 5).blk t).view.emb (ix1 (colZ' j))) = _
  rw [emb_bzr, V_bzr, cat_lo]
theorem blk_br (c : Dev nD) (t : Fin cfg0.N) (j : Fin 256) : iblk m c 5 t (ix1 (colR' j)) = m ((c : Thread nD τ).loc main_arg7) (ix1 j) := by
  show V m c main_v5 (((cfg0.win 5).blk t).view.emb (ix1 (colR' j))) = _
  rw [emb_bzr, V_bzr, cat_hi]
theorem blk_bh (c : Dev nD) (t : Fin cfg0.N) (j : Fin 256) : iblk m c 6 t (ix1 j) = m ((c : Thread nD τ).loc main_arg10) (ix1 j) := by
  show V m c main_arg10 (((cfg0.win 6).blk t).view.emb (ix1 j)) = _
  rw [emb_bh, V_main_arg10]

/-! ## What a point writes back, the cover, and the array after the run -/

/-- The result array as one function of the arguments. -/
abbrev G (c : Dev nD) : S65536x256.Idx → EReal := (gruArr (m ((c : Thread nD τ).loc main_arg0)) (m ((c : Thread nD τ).loc main_arg1)) (concatenate S256x768 1 [⟨S256x256, m ((c : Thread nD τ).loc main_arg2)⟩, ⟨S256x256, m ((c : Thread nD τ).loc main_arg5)⟩, ⟨S256x256, m ((c : Thread nD τ).loc main_arg8)⟩] concatenates_S256x256_S256x256_S256x256_S256x768_d1) (concatenate S256x512 1 [⟨S256x256, m ((c : Thread nD τ).loc main_arg3)⟩, ⟨S256x256, m ((c : Thread nD τ).loc main_arg6)⟩] concatenates_S256x256_S256x256_S256x512_d1) (m ((c : Thread nD τ).loc main_arg9)) (m ((c : Thread nD τ).loc main_arg4)) (m ((c : Thread nD τ).loc main_arg7)) (m ((c : Thread nD τ).loc main_arg10)))

/-- What point t writes back is block t of G. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after_out, out_blk_fun (iblk m c 0 t) (iblk m c 1 t) (iblk m c 2 t) (iblk m c 3 t) (iblk m c 4 t) (iblk m c 5 t) (iblk m c 6 t)]
  funext y
  obtain ⟨p, q, rfl⟩ : ∃ (p : Fin 1024) (q : Fin 256), y = ix2 p q := ⟨y 0, y 1, eq_ix2 y⟩
  show gruRow (fun k => iblk m c 0 t (ix2 p k)) (fun k => iblk m c 1 t (ix2 p k)) (iblk m c 2 t) (iblk m c 3 t) (iblk m c 4 t)
      (fun j => iblk m c 5 t (ix1 (colZ' j))) (fun j => iblk m c 5 t (ix1 (colR' j))) (fun j => iblk m c 6 t (ix1 j)) q
    = G m c (((cfg0.win 7).blk t).view.emb (ix2 p q))
  rw [emb_o, blk_Wx, blk_Uzr, blk_Uh, funext (blk_x m c t p), funext (blk_h m c t p), funext (blk_bz m c t), funext (blk_br m c t),
    funext (blk_bh m c t)]
  rfl

/-- An index of the array is in point t's block iff each coordinate is in the block's range on its axis. -/
theorem mem_blk (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v6).slice (win0_7.rect t)).set ↔ _
  rw [View.set_slice_whole, Rect.mem_set_unit]
  exact Iff.rfl

/-- Row r lies in block r / 1024. -/
theorem cover (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  let t : Fin cfg0.N := ⟨(i 0).val / 1024, by rw [show cfg0.N = 64 from N_0]; omega⟩
  refine ⟨t, flush0_7 t, ?_⟩
  obtain ⟨-, -, -, -, -, -, -, -, -, -, -, -, e0, e1⟩ := idx_facts t
  have ht : t.val = (i 0).val / 1024 := rfl
  rw [mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

/-- The result array after the run. -/
theorem final (c : Dev nD) : (dats m 0 c).arrAt 7 cfg0.N = G m c :=
  (dats m 0 c).arrAt_eq_of_cover 7 (G m c) (fun t _ => flushed_eq m c t) cover

/-! ## The run, read -/

/-- Every weakly fair execution of the kernel program ends with the result array at G of the arguments and the eleven
    arguments as launched. -/
theorem run : θ_run defs (onTc (τ := τ) (main (F := Ideal))) ⟨m, fun _ => 0, ρ⟩ fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1 7).trans (final m c),
      ((h c).1 0).trans ((((dats m 0 c)).arrAt_in 0 rfl _).trans ((A_eq m c 0).trans (V_main_arg0 m c))),
      ((h c).1 1).trans ((((dats m 0 c)).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans ((((dats m 0 c)).arrAt_in 6 rfl _).trans ((A_eq m c 6).trans (V_main_arg10 m c)))⟩)
    (run_main m ρ)

end Cert.KernelIdeal.Whole

end
-- ==== Proof.RefRow.lean ====
/-
  The reference's result, read at row r and column q, is the GRU row function of row r of x and of h_prev.

  The reference multiplies all of x by the side-by-side input weights and slices the product into three column
  blocks; an entry of a slice is the product's entry 0, 256 or 512 columns further on, that is the sum over k of
  x[r, k] times the weights' entry in that block. Likewise for h_prev and the two hidden gate matrices. A bias is
  broadcast along the rows, so its entry at (r, q) is its entry q. The host spells the logistic function as
  1 / (1 + exp(−t)), the two ones being the word 0x3F800000. The third product's left operand is the reset gate times
  h_prev, entry by entry, so its entry (r, q) is the sum over k of (r-gate[r, k] · h[r, k]) · Uh[k, q].
-/
import proofs.«168312_j28389733827226_1_alg».proof.Proof.Gen.ReferenceIdeal.Read
import proofs.«168312_j28389733827226_1_alg».proof.Proof.GruSpec

noncomputable section

namespace Cert.RefRow

open Cert.ReferenceIdeal Cert.ReferenceIdeal.Read Cert.GruSpec
open Idealize.ShloMosaic Idealize.ShloMosaic.ValueIdx

/-- An array of 65536 rows of 256 extended reals, a 256 × 256 matrix, a 256-vector. -/
abbrev Arr := (⟨S65536x256, .f32⟩ : BufTy).Contents (Elt Ideal)
abbrev Mat := (⟨S256x256, .f32⟩ : BufTy).Contents (Elt Ideal)
abbrev Vec256 := (⟨S256, .f32⟩ : BufTy).Contents (Elt Ideal)

variable (x0 x1 : Arr) (x2 x3 : Mat) (x4 : Vec256) (x5 x6 : Mat) (x7 : Vec256) (x8 x9 : Mat) (x10 : Vec256)
variable (r : Fin 65536) (q : Fin 256)

/-! ## The input-side product's three column blocks -/

theorem inZ : val_main_v2 (F := Ideal) x0 x2 x5 x8 (ix2 r q)
    = ∑ k : Fin 256, x0 (ix2 r k) * val_main_v0 (F := Ideal) x2 x5 x8 (ix2 k (colZ q)) := by
  rw [val_main_v2_apply, val_main_v1_apply]
  refine Finset.sum_congr rfl fun k _ => ?_
  have e1 : lidx_main_v1 (idx_main_v2 (ix2 r q)) k = ix2 r k := funext fun a => Fin.ext (by match a with | ⟨0, _⟩ => rfl | ⟨1, _⟩ => rfl)
  have e2 : ridx_main_v1 (idx_main_v2 (ix2 r q)) k = ix2 k (colZ q) := funext fun a => Fin.ext (by match a with | ⟨0, _⟩ => rfl | ⟨1, _⟩ => rfl)
  rw [e1, e2]

theorem inR : val_main_v3 (F := Ideal) x0 x2 x5 x8 (ix2 r q)
    = ∑ k : Fin 256, x0 (ix2 r k) * val_main_v0 (F := Ideal) x2 x5 x8 (ix2 k (colR q)) := by
  rw [val_main_v3_apply, val_main_v1_apply]
  refine Finset.sum_congr rfl fun k _ => ?_
  have e1 : lidx_main_v1 (idx_main_v3 (ix2 r q)) k = ix2 r k := funext fun a => Fin.ext (by match a with | ⟨0, _⟩ => rfl | ⟨1, _⟩ => rfl)
  have e2 : ridx_main_v1 (idx_main_v3 (ix2 r q)) k = ix2 k (colR q) := funext fun a => Fin.ext (by match a with | ⟨0, _⟩ => rfl | ⟨1, _⟩ => rfl)
  rw [e1, e2]

theorem inH : val_main_v4 (F := Ideal) x0 x2 x5 x8 (ix2 r q)
    = ∑ k : Fin 256, x0 (ix2 r k) * val_main_v0 (F := Ideal) x2 x5 x8 (ix2 k (colH q)) := by
  rw [val_main_v4_apply, val_main_v1_apply]
  refine Finset.sum_congr rfl fun k _ => ?_
  have e1 : lidx_main_v1 (idx_main_v4 (ix2 r q)) k = ix2 r k := funext fun a => Fin.ext (by match a with | ⟨0, _⟩ => rfl | ⟨1, _⟩ => rfl)
  have e2 : ridx_main_v1 (idx_main_v4 (ix2 r q)) k = ix2 k (colH q) := funext fun a => Fin.ext (by match a with | ⟨0, _⟩ => rfl | ⟨1, _⟩ => rfl)
  rw [e1, e2]

/-! ## The hidden-side product's two column blocks -/

theorem hidZ : val_main_v7 (F := Ideal) x1 x3 x6 (ix2 r q)
    = ∑ k : Fin 256, x1 (ix2 r k) * val_main_v5 (F := Ideal) x3 x6 (ix2 k (colZ' q)) := by
  rw [val_main_v7_apply, val_main_v6_apply]
  refine Finset.sum_congr rfl fun k _ => ?_
  have e1 : lidx_main_v6 (idx_main_v7 (ix2 r q)) k = ix2 r k := funext fun a => Fin.ext (by match a with | ⟨0, _⟩ => rfl | ⟨1, _⟩ => rfl)
  have e2 : ridx_main_v6 (idx_main_v7 (ix2 r q)) k = ix2 k (colZ' q) := funext fun a => Fin.ext (by match a with | ⟨0, _⟩ => rfl | ⟨1, _⟩ => rfl)
  rw [e1, e2]

theorem hidR : val_main_v8 (F := Ideal) x1 x3 x6 (ix2 r q)
    = ∑ k : Fin 256, x1 (ix2 r k) * val_main_v5 (F := Ideal) x3 x6 (ix2 k (colR' q)) := by
  rw [val_main_v8_apply, val_main_v6_apply]
  refine Finset.sum_congr rfl fun k _ => ?_
  have e1 : lidx_main_v6 (idx_main_v8 (ix2 r q)) k = ix2 r k := funext fun a => Fin.ext (by match a with | ⟨0, _⟩ => rfl | ⟨1, _⟩ => rfl)
  have e2 : ridx_main_v6 (idx_main_v8 (ix2 r q)) k = ix2 k (colR' q) := funext fun a => Fin.ext (by match a with | ⟨0, _⟩ => rfl | ⟨1, _⟩ => rfl)
  rw [e1, e2]

/-! ## A bias broadcast along the rows -/

theorem biasZ : val_main_v11 (F := Ideal) x4 (ix2 r q) = x4 (ix1 q) := by
  rw [val_main_v11_apply, val_main_v10_apply]
  exact congrArg x4 (funext fun a => Fin.ext (by match a with | ⟨0, _⟩ => rfl))

theorem biasR : val_main_v21 (F := Ideal) x7 (ix2 r q) = x7 (ix1 q) := by
  rw [val_main_v21_apply, val_main_v20_apply]
  exact congrArg x7 (funext fun a => Fin.ext (by match a with | ⟨0, _⟩ => rfl))

theorem biasH : val_main_v33 (F := Ideal) x10 (ix2 r q) = x10 (ix1 q) := by
  rw [val_main_v33_apply, val_main_v32_apply]
  exact congrArg x10 (funext fun a => Fin.ext (by match a with | ⟨0, _⟩ => rfl))

/-! ## The literal one, broadcast -/

theorem one15 : val_main_v15 (F := Ideal) (ix2 r q) = Ideal.ofBits .f32 0x3F800000#32 := by
  rw [val_main_v15_apply, val_main_cst_apply]; rfl
theorem one17 : val_main_v17 (F := Ideal) (ix2 r q) = Ideal.ofBits .f32 0x3F800000#32 := by
  rw [val_main_v17_apply, val_main_cst_0_apply]; rfl
theorem one25 : val_main_v25 (F := Ideal) (ix2 r q) = Ideal.ofBits .f32 0x3F800000#32 := by
  rw [val_main_v25_apply, val_main_cst_1_apply]; rfl
theorem one27 : val_main_v27 (F := Ideal) (ix2 r q) = Ideal.ofBits .f32 0x3F800000#32 := by
  rw [val_main_v27_apply, val_main_cst_2_apply]; rfl
theorem one37 : val_main_v37 (F := Ideal) (ix2 r q) = Ideal.ofBits .f32 0x3F800000#32 := by
  rw [val_main_v37_apply, val_main_cst_3_apply]; rfl

/-- The host's spelling of the logistic function, 1 / (1 + exp(−t)) with both ones the word 0x3F800000. -/
theorem host_logistic (t : EReal) :
    Ideal.div (Ideal.ofBits .f32 0x3F800000#32) (Ideal.ofBits .f32 0x3F800000#32 + Ideal.exp (-t)) = Ideal.logistic t := by
  rw [one_word]; rfl

/-! ## The gates -/

theorem gZ : val_main_v18 (F := Ideal) x0 x1 x2 x3 x4 x5 x6 x8 (ix2 r q)
    = gateZ (fun k => x0 (ix2 r k)) (fun k => x1 (ix2 r k)) (val_main_v0 (F := Ideal) x2 x5 x8) (val_main_v5 (F := Ideal) x3 x6)
        (fun j => x4 (ix1 j)) q := by
  rw [val_main_v18_apply, one17, val_main_v16_apply, one15, val_main_v14_apply, val_main_v13_apply, val_main_v12_apply,
    val_main_v9_apply, inZ, hidZ, biasZ]
  exact host_logistic _

theorem gR : val_main_v28 (F := Ideal) x0 x1 x2 x3 x5 x6 x7 x8 (ix2 r q)
    = gateR (fun k => x0 (ix2 r k)) (fun k => x1 (ix2 r k)) (val_main_v0 (F := Ideal) x2 x5 x8) (val_main_v5 (F := Ideal) x3 x6)
        (fun j => x7 (ix1 j)) q := by
  rw [val_main_v28_apply, one27, val_main_v26_apply, one25, val_main_v24_apply, val_main_v23_apply, val_main_v22_apply,
    val_main_v19_apply, inR, hidR, biasR]
  exact host_logistic _

/-! ## The recurrent product and the candidate -/

theorem recur : val_main_v30 (F := Ideal) x0 x1 x2 x3 x5 x6 x7 x8 x9 (ix2 r q)
    = ∑ k : Fin 256, (gateR (fun k => x0 (ix2 r k)) (fun k => x1 (ix2 r k)) (val_main_v0 (F := Ideal) x2 x5 x8) (val_main_v5 (F := Ideal) x3 x6)
        (fun j => x7 (ix1 j)) k * x1 (ix2 r k)) * x9 (ix2 k q) := by
  rw [val_main_v30_apply]
  refine Finset.sum_congr rfl fun k _ => ?_
  have e1 : lidx_main_v30 (ix2 r q) k = ix2 r k := funext fun a => Fin.ext (by match a with | ⟨0, _⟩ => rfl | ⟨1, _⟩ => rfl)
  have e2 : ridx_main_v30 (ix2 r q) k = ix2 k q := funext fun a => Fin.ext (by match a with | ⟨0, _⟩ => rfl | ⟨1, _⟩ => rfl)
  rw [e1, e2, val_main_v29_apply, gR]
  rfl

theorem cnd : val_main_v35 (F := Ideal) x0 x1 x2 x3 x5 x6 x7 x8 x9 x10 (ix2 r q)
    = cand (fun k => x0 (ix2 r k)) (fun k => x1 (ix2 r k)) (val_main_v0 (F := Ideal) x2 x5 x8) (val_main_v5 (F := Ideal) x3 x6) x9
        (fun j => x7 (ix1 j)) (fun j => x10 (ix1 j)) q := by
  rw [val_main_v35_apply, val_main_v34_apply, val_main_v31_apply, inH, recur, biasH]
  rfl

/-! ## The result -/

/-- The reference's last stage at (r, q) is the row function at column q of rows r of x and of h_prev. -/
theorem ref_at : val_main_v40 (F := Ideal) x0 x1 x2 x3 x4 x5 x6 x7 x8 x9 x10 (ix2 r q)
    = gruRow (fun k => x0 (ix2 r k)) (fun k => x1 (ix2 r k)) (val_main_v0 (F := Ideal) x2 x5 x8) (val_main_v5 (F := Ideal) x3 x6) x9
        (fun j => x4 (ix1 j)) (fun j => x7 (ix1 j)) (fun j => x10 (ix1 j)) q := by
  rw [val_main_v40_apply, val_main_v36_apply, val_main_v39_apply, val_main_v38_apply, one37, gZ, cnd]
  rfl

/-- The reference's last stage, as a whole array. -/
theorem ref_arr : val_main_v40 (F := Ideal) x0 x1 x2 x3 x4 x5 x6 x7 x8 x9 x10
    = gruArr x0 x1 (val_main_v0 (F := Ideal) x2 x5 x8) (val_main_v5 (F := Ideal) x3 x6) x9 x4 x7 x10 := by
  funext i
  obtain ⟨r, q, rfl⟩ : ∃ (r : Fin 65536) (q : Fin 256), i = ix2 r q := ⟨i 0, i 1, eq_ix2 i⟩
  exact ref_at x0 x1 x2 x3 x4 x5 x6 x7 x8 x9 x10 r q

end Cert.RefRow

end
-- ==== Proof.lean ====
/-
  The certificate of a GRU cell computed by a pipelined kernel against the plain reference: both programs run to
  the end leaving their arguments unchanged, and at the ideal values they end with the same new hidden state.

  Both compute, for every row of the batch, z = σ(x·Wz + h·Uz + bz), r = σ(x·Wr + h·Ur + br),
  ĥ = tanh(x·Wh + (r ∘ h)·Uh + bh) and h' = z ∘ h + (1 − z) ∘ ĥ, with the three input-side products fused into one
  against the side-by-side weights and the two gate products on the hidden side likewise; the sums are grouped the
  same way in both. The kernel works on 1024 rows at a time with the weights resident and narrowed to bf16 (no change
  at the ideal values), and applies the logistic function as one operation where the host spells it
  1 / (1 + exp(−t)): the same function of the extended reals. No algebraic law beyond that identification is needed,
  so finiteness of the inputs is never used.

  Proof/KernelFrame.lean and Proof/KernelIdealFrame.lean: the kernel program's run (at the word level and at the
  ideal values). Proof/GruSpec.lean: the row function. Proof/KernelRow.lean: the stored block is the row function
  of the blocks' rows. Proof/KernelWhole.lean: the result array as one function of the arguments. Proof/RefRow.lean:
  the reference's result is the same function. Proof/LibNary3.lean: a host operation over three buffers.
-/
import proofs.«168312_j28389733827226_1_alg».proof.Defs
import proofs.«168312_j28389733827226_1_alg».proof.Proof.Gen.Kernel
import proofs.«168312_j28389733827226_1_alg».proof.Proof.Gen.KernelIdeal
import proofs.«168312_j28389733827226_1_alg».proof.Proof.Gen.ReferenceIdeal
import proofs.«168312_j28389733827226_1_alg».proof.Proof.Gen.ReferenceIdeal.Run
import proofs.«168312_j28389733827226_1_alg».proof.Proof.Gen.ReferenceIdeal.Read
import proofs.«168312_j28389733827226_1_alg».proof.Proof.Gen.Pre_finite_inputs
import proofs.«168312_j28389733827226_1_alg».proof.Proof.KernelFrame
import proofs.«168312_j28389733827226_1_alg».proof.Proof.KernelIdealFrame
import proofs.«168312_j28389733827226_1_alg».proof.Proof.KernelWhole
import proofs.«168312_j28389733827226_1_alg».proof.Proof.RefRow
import Idealize.ShloMosaic.Adequacy
import Idealize.ShloMosaic.Init

noncomputable section

namespace Cert.Proof

open Idealize.ShloMosaic Idealize.SL.Sem

/-- The kernel program at the word level runs to the end and keeps its arguments. -/
theorem frame_k : Cert.frame_Kernel := fun m ρ _ => Cert.Kernel.Hand.frame m ρ

/-- So does it at the ideal values. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at the GRU function of the
    arguments: the kernel's by its blocks, the reference's stage by stage. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.RefRow.ref_arr]
  obtain ⟨h0, h1, h2, h3, h4, h5, h6, h7, h8, h9, h10⟩ := hagree c
  rw [h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
